-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S3072x1024 .f32) (main_arg9 : FVec F S3072 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S3072x1024 .f32 := Host.absf main_arg8
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  let main_v44 : FVec F S3072 .f32 := Host.absf main_arg9
  let main_cst_16 : FVec F S_ .f32 := constant S_ .f32 0x7F800000#32
  let main_v45 : FVec F S3072 .f32 := broadcastInDim S3072 ![] bcast_S_S3072 main_cst_16
  let main_v46 : IVec S3072 1 := cmpf .olt main_v44 main_v45
  let main_c_17 : IVec S_ 1 := constantI S_ 1 1#1
  let main_v47 : IVec S_ 1 := (fun x v => Host.reduce IntOp.andi x v reducesTo_S3072_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S3072x1024 .f32) (main_arg5 : FVec F S3072 .f32) (main_arg6 : FVec F S1024x1024 .f32) (main_arg7 : FVec F S1024 .f32) (main_arg8 : FVec F S3072x1024 .f32) (main_arg9 : FVec F S3072 .f32) (main_arg10 : FVec F S1024x1024 .f32) (main_arg11 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x1024 .f32) (main_arg1 : FVec F S16384x1024 .f32) (main_arg2 : FVec F S1024x1024 .f32) (main_arg3 : FVec F S1024 .f32) (main_arg4 : FVec F S3072x1024 .f32) (main_arg5 : FVec F S3072 .f32) (main_arg6 : FVec F S1024x1024 .f32) (main_arg7 : FVec F S1024 .f32) (main_arg8 : FVec F S3072x1024 .f32) (main_arg9 : FVec F S3072 .f32) (main_arg10 : FVec F S1024x1024 .f32) (main_arg11 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S512x1024 : Shape := ⟨2, ![512, 1024]⟩

abbrev nBuf : Space → Nat
  | .hbm => 29
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024x1024, .bf16⟩
  | .hbm, ⟨14, _⟩ => ⟨S1024, .f32⟩
  | .hbm, ⟨15, _⟩ => ⟨S1x1024, .f32⟩
  | .hbm, ⟨16, _⟩ => ⟨S1024x1024, .f32⟩
  | .hbm, ⟨17, _⟩ => ⟨S1024x1024, .bf16⟩
  | .hbm, ⟨18, _⟩ => ⟨S1024, .f32⟩
  | .hbm, ⟨19, _⟩ => ⟨S1x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S3072x1024_S1024x1024_2048_0 : S3072x1024.Slices ![2048, 0] S1024x1024
  bitsLt_bf16_f32 : FTy.bits .bf16 < FTy.bits .f32
  slices_S3072_S1024_2048 : S3072.Slices ![2048] S1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S16384x1024.size a
  hwx0_12 : ∀ i : grid0.Coords, EltTy.bits .f32 = 32 ∨ (Rect.block (s := S16384x1024) S512x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1024.size a ≤ S16384x1024.size a
  hwx0_13 : ∀ i : grid0.Coords, EltTy.bits .f32 = 32 ∨ (Rect.block (s := S16384x1024) S512x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S16384x1024.size a
  hwx0_14 : ∀ i : grid0.Coords, EltTy.bits .f32 = 32 ∨ (Rect.block (s := S16384x1024) S512x1024.size (cc0_transform_14 i) (hinb0_14 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14_0) S512x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14_1) S512x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v14_2) S512x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x1024 : Shape := ⟨2, ![1, 1024]⟩
abbrev S16384x8x128 : Shape := ⟨3, ![16384, 8, 128]⟩
abbrev S_ : Shape := ⟨0, ![]⟩
abbrev S16384x8 : Shape := ⟨2, ![16384, 8]⟩
abbrev S16384x8x1 : Shape := ⟨3, ![16384, 8, 1]⟩

abbrev nBuf : Space → Nat
  | .hbm => 122
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S3072x1024, .f32⟩
  | .hbm, ⟨5, _⟩ => ⟨S3072, .f32⟩
  | .hbm, ⟨6, _⟩ => ⟨S1024x1024, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S1024x1024, .f32⟩
  | .hbm, ⟨11, _⟩ => ⟨S1024, .f32⟩
  | .hbm, ⟨12, _⟩ => ⟨S16384x1024, .f32⟩
  | .hbm, ⟨13, _⟩ => ⟨S1024x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x8x128, .f32⟩
  | .hbm, ⟨30, _⟩ => ⟨S1024x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x8x128, .f32⟩
  | .hbm, ⟨36, _⟩ => ⟨S1024x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x8x128, .f32⟩
  | .hbm, ⟨42, _⟩ => ⟨S16384x8x128, .f32⟩
  | .hbm, ⟨43, _⟩ => ⟨S_, .f32⟩
  | .hbm, ⟨44, _⟩ => ⟨S16384x8, .f32⟩
  | .hbm, ⟨45, _⟩ => ⟨S_, .f32⟩
  | .hbm, ⟨46, _⟩ => ⟨S_, .f32⟩
  | .hbm, ⟨47, _⟩ => ⟨S16384x8, .f32⟩
  | .hbm, ⟨48, _⟩ => ⟨S16384x8, .f32⟩
  | .hbm, ⟨49, _⟩ => ⟨S16384x8x1, .f32⟩
  | .hbm, ⟨50, _⟩ => ⟨S_, .f32⟩
  | .hbm, ⟨51, _⟩ => ⟨S16384x8, .f32⟩
  | .hbm, ⟨52, _⟩ => ⟨S_, .f32⟩
  | .hbm, ⟨53, _⟩ => ⟨S16384x8, .f32⟩
  | .hbm, ⟨54, _⟩ => ⟨S16384x8, .f32⟩
  | .hbm, ⟨55, _⟩ => ⟨S16384x8x1, .f32⟩
  | .hbm, ⟨56, _⟩ => ⟨S16384x8x1, .f32⟩
  | .hbm, ⟨57, _⟩ => ⟨S16384x8x1, .f32⟩
  | .hbm, ⟨58, _⟩ => ⟨S_, .f32⟩
  | .hbm, ⟨59, _⟩ => ⟨S16384x8, .f32⟩
  | .hbm, ⟨60, _⟩ => ⟨S16384x8x1, .f32⟩
  | .hbm, ⟨61, _⟩ => ⟨S16384x8x1, .f32⟩
  | .hbm, ⟨62, _⟩ => ⟨S16384x8x128, .f32⟩
  | .hbm, ⟨63, _⟩ => ⟨S16384x8x128, .f32⟩
  | .hbm, ⟨64, _⟩ => ⟨S16384x1024, .f32⟩
  | .hbm, ⟨65, _⟩ => ⟨S1024x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S1024x1024, .f32⟩
  | .hbm, ⟨71, _⟩ => ⟨S1024x1024, .f32⟩
  | .hbm, ⟨72, _⟩ => ⟨S1024x1024, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | .hbm, ⟨81, _⟩ => ⟨S16384x8x128, .f32⟩
  | .hbm, ⟨82, _⟩ => ⟨S1024x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x8x128, .f32⟩
  | .hbm, ⟨88, _⟩ => ⟨S1024x1024, .f32⟩
  | .hbm, ⟨89, _⟩ => ⟨S16384x1024, .f32⟩
  | .hbm, ⟨90, _⟩ => ⟨S1x1024, .f32⟩
  | .hbm, ⟨91, _⟩ => ⟨S16384x1024, .f32⟩
  | .hbm, ⟨92, _⟩ => ⟨S16384x1024, .f32⟩
  | .hbm, ⟨93, _⟩ => ⟨S16384x8x128, .f32⟩
  | .hbm, ⟨94, _⟩ => ⟨S16384x8x128, .f32⟩
  | .hbm, ⟨95, _⟩ => ⟨S_, .f32⟩
  | .hbm, ⟨96, _⟩ => ⟨S16384x8, .f32⟩
  | .hbm, ⟨97, _⟩ => ⟨S_, .f32⟩
  | .hbm, ⟨98, _⟩ => ⟨S_, .f32⟩
  | .hbm, ⟨99, _⟩ => ⟨S16384x8, .f32⟩
  | .hbm, ⟨100, _⟩ => ⟨S16384x8, .f32⟩
  | .hbm, ⟨101, _⟩ => ⟨S16384x8x1, .f32⟩
  | .hbm, ⟨102, _⟩ => ⟨S_, .f32⟩
  | .hbm, ⟨103, _⟩ => ⟨S16384x8, .f32⟩
  | .hbm, ⟨104, _⟩ => ⟨S_, .f32⟩
  | .hbm, ⟨105, _⟩ => ⟨S16384x8, .f32⟩
  | .hbm, ⟨106, _⟩ => ⟨S16384x8, .f32⟩
  | .hbm, ⟨107, _⟩ => ⟨S16384x8x1, .f32⟩
  | .hbm, ⟨108, _⟩ => ⟨S16384x8x1, .f32⟩
  | .hbm, ⟨109, _⟩ => ⟨S16384x8x1, .f32⟩
  | .hbm, ⟨110, _⟩ => ⟨S_, .f32⟩
  | .hbm, ⟨111, _⟩ => ⟨S16384x8, .f32⟩
  | .hbm, ⟨112, _⟩ => ⟨S16384x8x1, .f32⟩
  | .hbm, ⟨113, _⟩ => ⟨S16384x8x1, .f32⟩
  | .hbm, ⟨114, _⟩ => ⟨S16384x8x128, .f32⟩
  | .hbm, ⟨115, _⟩ => ⟨S16384x8x128, .f32⟩
  | .hbm, ⟨116, _⟩ => ⟨S16384x1024, .f32⟩
  | .hbm, ⟨117, _⟩ => ⟨S1024x1024, .f32⟩
  | .hbm, ⟨118, _⟩ => ⟨S16384x1024, .f32⟩
  | .hbm, ⟨119, _⟩ => ⟨S1x1024, .f32⟩
  | .hbm, ⟨120, _⟩ => ⟨S16384x1024, .f32⟩
  | .hbm, ⟨121, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_cst_0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_1 : Ref sig .tc := ⟨.hbm, 50, rfl⟩
abbrev main_v36 : Ref sig .tc := ⟨.hbm, 51, rfl⟩
abbrev main_cst_2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_4 : Ref sig .tc := ⟨.hbm, 95, rfl⟩
abbrev main_v78 : Ref sig .tc := ⟨.hbm, 96, rfl⟩
abbrev main_cst_5 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_6 : Ref sig .tc := ⟨.hbm, 102, rfl⟩
abbrev main_v83 : Ref sig .tc := ⟨.hbm, 103, rfl⟩
abbrev main_cst_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_8 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  shapeCasts_S16384x1024_S16384x8x128 : S16384x1024.ShapeCasts S16384x8x128
  reducesTo_S16384x8x128_S16384x8_d2 : S16384x8x128.ReducesTo [2] S16384x8
  h_S_ : 0 < S_.numel
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  reducesTo_S16384x8x1_S16384x8_d2 : S16384x8x1.ReducesTo [2] S16384x8
  bcast_S16384x8x1_S16384x8x128_0_1_2 : S16384x8x1.BroadcastsInDim S16384x8x128 (![0, 1, 2] : Fin 3 → Fin S16384x8x128.rank)
  shapeCasts_S16384x8x128_S16384x1024 : S16384x8x128.ShapeCasts S16384x1024
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.LibStats.lean ====
/-
  Pure mathematics on the extended reals, used from both programs' sides.

  (1) "Is a real": an extended real that is neither infinity, and the operations of one layer
      that keep a value real: sum, difference, product, quotient by a nonzero real, maximum,
      the reciprocal square root of a positive real, and finite sums.
  (2) The batch statistics over a finite index type of N elements: for real entries the
      one-pass variance  max (Σx²/N − (Σx/N)², 0)  is the two-pass variance  Σ(x − mean)²/N,
      which is a nonnegative real; adding a positive real to it gives a positive real.
  (3) Re-indexing a sum over Fin (a·b) as a double sum over Fin a × Fin b, the pair (t, r)
      standing for the index b·t + r.
-/
import Idealize.ShloMosaic.PureOps.Ideal
import Idealize.ShloMosaic.PureOps.Ideal.Laws
import Mathlib.Data.EReal.Inv
import Mathlib.Data.Fintype.BigOperators
import Mathlib.Logic.Equiv.Fin.Basic

noncomputable section

namespace Cert.Hand.LibStats

open Idealize.ShloMosaic
open scoped BigOperators

/-! ## Real values among the extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem isReal_iff {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩
theorem IsReal.ne_bot {x : EReal} (hx : IsReal x) : x ≠ ⊥ := (isReal_iff.mp hx).1
theorem IsReal.ne_top {x : EReal} (hx : IsReal x) : x ≠ ⊤ := (isReal_iff.mp hx).2

theorem IsReal.add {x y : EReal} (hx : IsReal x) (hy : IsReal y) : IsReal (x + y) := by
  obtain ⟨a, rfl⟩ := hx; obtain ⟨b, rfl⟩ := hy
  exact ⟨a + b, (EReal.coe_add a b).symm⟩
theorem IsReal.sub {x y : EReal} (hx : IsReal x) (hy : IsReal y) : IsReal (x - y) := by
  obtain ⟨a, rfl⟩ := hx; obtain ⟨b, rfl⟩ := hy
  exact ⟨a - b, (EReal.coe_sub a b).symm⟩
theorem IsReal.mul {x y : EReal} (hx : IsReal x) (hy : IsReal y) : IsReal (x * y) := by
  obtain ⟨a, rfl⟩ := hx; obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.max_zero {x : EReal} (hx : IsReal x) : IsReal (Max.max x 0) := hx.max isReal_zero

/-- The quotient of two reals, the divisor not zero, is the real quotient. -/
theorem div_coe_coe (a c : ℝ) (hc : c ≠ 0) : Ideal.div (a : EReal) (c : EReal) = ((a / c : ℝ) : EReal) := by
  rw [Ideal.div_coe hc, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  have hb : b ≠ 0 := by rintro rfl; exact h0 EReal.coe_zero
  exact ⟨a / b, div_coe_coe a b hb⟩
theorem IsReal.div_coe {x : EReal} (hx : IsReal x) {c : ℝ} (hc : c ≠ 0) : IsReal (Ideal.div x (c : EReal)) := by
  obtain ⟨a, rfl⟩ := hx
  exact ⟨a / c, div_coe_coe a c hc⟩

/-- The reciprocal square root of a positive real r is the real (√r)⁻¹, which is positive. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']
theorem rsqrt_pos_real {r : ℝ} (hr : 0 < r) : ∃ s : ℝ, 0 < s ∧ Ideal.rsqrt (r : EReal) = (s : EReal) :=
  ⟨(Real.sqrt r)⁻¹, inv_pos.mpr (Real.sqrt_pos.mpr hr), rsqrt_coe_pos hr⟩
theorem IsReal.rsqrt_pos {x : EReal} (hx : IsReal x) (h : 0 < x) : IsReal (Ideal.rsqrt x) := by
  obtain ⟨r, rfl⟩ := hx
  exact ⟨_, rsqrt_coe_pos (EReal.coe_pos.mp h)⟩

/-- The coercion of a finite real sum is the sum of the coercions. -/
theorem coe_sum {ι : Type*} (s : Finset ι) (f : ι → ℝ) : ((∑ i ∈ s, f i : ℝ) : EReal) = ∑ i ∈ s, (f i : EReal) := by
  classical
  refine Finset.induction_on s ?_ ?_
  · rw [Finset.sum_empty, Finset.sum_empty]; rfl
  · intro a s ha ih
    rw [Finset.sum_insert ha, Finset.sum_insert ha, EReal.coe_add, ih]
theorem IsReal.sum {ι : Type*} (s : Finset ι) (f : ι → EReal) (h : ∀ i ∈ s, IsReal (f i)) : IsReal (∑ i ∈ s, f i) := by
  classical
  revert h
  refine Finset.induction_on s ?_ ?_
  · intro _; rw [Finset.sum_empty]; exact isReal_zero
  · intro a s ha ih h
    rw [Finset.sum_insert ha]
    exact (h a (Finset.mem_insert_self a s)).add (ih fun i hi => h i (Finset.mem_insert_of_mem hi))
theorem IsReal.sum_univ {ι : Type*} [Fintype ι] (f : ι → EReal) (h : ∀ i, IsReal (f i)) : IsReal (∑ i, f i) :=
  IsReal.sum _ f fun i _ => h i

/-! The same closure facts over the float operations read at the exact instance. -/

theorem IsReal.addf {φ : FTy} {x y : Ideal φ} (hx : IsReal x) (hy : IsReal y) : IsReal (FloatOps.addf x y) := hx.add hy
theorem IsReal.subf {φ : FTy} {x y : Ideal φ} (hx : IsReal x) (hy : IsReal y) : IsReal (FloatOps.subf x y) := hx.sub hy
theorem IsReal.mulf {φ : FTy} {x y : Ideal φ} (hx : IsReal x) (hy : IsReal y) : IsReal (FloatOps.mulf x y) := hx.mul hy
theorem IsReal.maximumf {φ : FTy} {x y : Ideal φ} (hx : IsReal x) (hy : IsReal y) : IsReal (FloatOps.maximumf x y) := hx.max hy
theorem IsReal.divf {φ : FTy} {x y : Ideal φ} (hx : IsReal x) (hy : IsReal y) (h0 : y ≠ 0) : IsReal (FloatOps.divf x y) := hx.div hy h0
theorem IsReal.hostDivf {φ : FTy} {x y : Ideal φ} (hx : IsReal x) (hy : IsReal y) (h0 : y ≠ 0) : IsReal (FloatOps.hostDivf x y) := hx.div hy h0
theorem IsReal.rsqrtf {φ : FTy} {x : Ideal φ} (hx : IsReal x) (h : (0 : EReal) < x) : IsReal (FloatOps.rsqrt x) := hx.rsqrt_pos h

/-! ## The batch statistics -/

section Stats

variable {ι : Type*} [Fintype ι]

/-- Over the reals: with N the number of indices, the mean of the squares less the square of the mean is
    the mean of the squared deviations. Expanding the square, the cross term is 2 · mean · Σx = 2 · N · mean²
    and the constant term sums to N · mean². -/
theorem real_batch_var (N : ℝ) (hN : (Fintype.card ι : ℝ) = N) (hN0 : N ≠ 0) (r : ι → ℝ) :
    (∑ i, r i * r i) / N - (∑ i, r i) / N * ((∑ i, r i) / N)
      = (∑ i, (r i - (∑ i, r i) / N) * (r i - (∑ i, r i) / N)) / N := by
  have h1 : ∀ m : ℝ, ∑ i, (r i - m) * (r i - m) = (∑ i, r i * r i) - 2 * m * (∑ i, r i) + N * (m * m) := by
    intro m
    have h2 : ∀ i, (r i - m) * (r i - m) = r i * r i - 2 * m * r i + m * m := fun i => by ring
    simp only [h2]
    rw [Finset.sum_add_distrib, Finset.sum_sub_distrib, ← Finset.mul_sum, Finset.sum_const, Finset.card_univ,
      nsmul_eq_mul, hN]
  rw [h1]
  field_simp
  ring

/-- The number of indices, not zero, is positive. -/
theorem card_pos_of_ne (N : ℝ) (hN : (Fintype.card ι : ℝ) = N) (hN0 : N ≠ 0) : 0 < N :=
  lt_of_le_of_ne (hN ▸ Nat.cast_nonneg _) hN0.symm

/-- Over the reals the mean of the squared deviations is not negative. -/
theorem real_var_nonneg (N : ℝ) (hN : (Fintype.card ι : ℝ) = N) (hN0 : N ≠ 0) (r : ι → ℝ) (m : ℝ) :
    0 ≤ (∑ i, (r i - m) * (r i - m)) / N :=
  div_nonneg (Finset.sum_nonneg fun i _ => mul_self_nonneg _) (card_pos_of_ne N hN hN0).le

/-- The mean of real entries, as the real quotient. -/
theorem mean_coe (Nr : ℝ) (hN0 : Nr ≠ 0) (r : ι → ℝ) :
    Ideal.div (∑ i, (r i : EReal)) (Nr : EReal) = (((∑ i, r i) / Nr : ℝ) : EReal) := by
  rw [← coe_sum, div_coe_coe _ _ hN0]

/-- The mean of the squared deviations of real entries, as a real. -/
theorem var2_coe (Nr : ℝ) (hN0 : Nr ≠ 0) (r : ι → ℝ) :
    Ideal.div (∑ i, ((r i : EReal) - Ideal.div (∑ i, (r i : EReal)) (Nr : EReal))
        * ((r i : EReal) - Ideal.div (∑ i, (r i : EReal)) (Nr : EReal))) (Nr : EReal)
      = (((∑ i, (r i - (∑ i, r i) / Nr) * (r i - (∑ i, r i) / Nr)) / Nr : ℝ) : EReal) := by
  rw [mean_coe Nr hN0 r]
  simp only [← EReal.coe_sub, ← EReal.coe_mul]
  rw [← coe_sum, div_coe_coe _ _ hN0]

/-- The mean of real entries is real. -/
theorem isReal_mean (Nr : ℝ) (hN0 : Nr ≠ 0) (x : ι → EReal) (hx : ∀ i, IsReal (x i)) :
    IsReal (Ideal.div (∑ i, x i) (Nr : EReal)) :=
  (IsReal.sum_univ x hx).div_coe hN0

/-- One pass against two: for real entries over an index type of Nr elements, the mean of the squares
    less the square of the mean, cut off below at zero, is the mean of the squared deviations. -/
theorem batch_var (Nr : ℝ) (hN : (Fintype.card ι : ℝ) = Nr) (hN0 : Nr ≠ 0) (x : ι → EReal) (hx : ∀ i, IsReal (x i)) :
    max (Ideal.div (∑ i, x i * x i) (Nr : EReal)
          - Ideal.div (∑ i, x i) (Nr : EReal) * Ideal.div (∑ i, x i) (Nr : EReal)) 0
      = Ideal.div (∑ i, (x i - Ideal.div (∑ i, x i) (Nr : EReal)) * (x i - Ideal.div (∑ i, x i) (Nr : EReal))) (Nr : EReal) := by
  choose r hr using hx
  simp only [hr]
  have hsq : Ideal.div (∑ i, (r i : EReal) * (r i : EReal)) (Nr : EReal) = (((∑ i, r i * r i) / Nr : ℝ) : EReal) := by
    simp only [← EReal.coe_mul]
    rw [← coe_sum, div_coe_coe _ _ hN0]
  rw [var2_coe Nr hN0 r, mean_coe Nr hN0 r, hsq, ← EReal.coe_mul, ← EReal.coe_sub, real_batch_var Nr hN hN0 r]
  exact max_eq_left (EReal.coe_nonneg.mpr (real_var_nonneg Nr hN hN0 r _))

/-- The mean of the squared deviations is a nonnegative real. -/
theorem batch_var_nonneg (Nr : ℝ) (hN : (Fintype.card ι : ℝ) = Nr) (hN0 : Nr ≠ 0) (x : ι → EReal) (hx : ∀ i, IsReal (x i)) :
    ∃ v : ℝ, 0 ≤ v ∧
      Ideal.div (∑ i, (x i - Ideal.div (∑ i, x i) (Nr : EReal)) * (x i - Ideal.div (∑ i, x i) (Nr : EReal))) (Nr : EReal) = (v : EReal) := by
  choose r hr using hx
  simp only [hr]
  exact ⟨_, real_var_nonneg Nr hN hN0 r _, var2_coe Nr hN0 r⟩

/-- … and with a positive real added it is a positive real. -/
theorem batch_var_add_pos (Nr : ℝ) (hN : (Fintype.card ι : ℝ) = Nr) (hN0 : Nr ≠ 0) (x : ι → EReal) (hx : ∀ i, IsReal (x i))
    (e : ℝ) (he : 0 < e) :
    ∃ v : ℝ, 0 < v ∧
      Ideal.div (∑ i, (x i - Ideal.div (∑ i, x i) (Nr : EReal)) * (x i - Ideal.div (∑ i, x i) (Nr : EReal))) (Nr : EReal) + (e : EReal)
        = (v : EReal) := by
  obtain ⟨v, hv, h⟩ := batch_var_nonneg Nr hN hN0 x hx
  exact ⟨v + e, add_pos_of_nonneg_of_pos hv he, by rw [h, EReal.coe_add]⟩

/-- … so its reciprocal square root is a positive real. -/
theorem batch_rsqrt_real (Nr : ℝ) (hN : (Fintype.card ι : ℝ) = Nr) (hN0 : Nr ≠ 0) (x : ι → EReal) (hx : ∀ i, IsReal (x i))
    (e : ℝ) (he : 0 < e) :
    ∃ s : ℝ, 0 < s ∧
      Ideal.rsqrt (Ideal.div (∑ i, (x i - Ideal.div (∑ i, x i) (Nr : EReal)) * (x i - Ideal.div (∑ i, x i) (Nr : EReal))) (Nr : EReal)
          + (e : EReal)) = (s : EReal) := by
  obtain ⟨v, hv, h⟩ := batch_var_add_pos Nr hN hN0 x hx e he
  rw [h]
  exact rsqrt_pos_real hv

end Stats

/-! ## Sums over Fin (a * b) as double sums -/

section Reindex

/-- The pair (t, r) stands for the index b * t + r of Fin n, n = a * b. -/
def finProdEquiv (a b n : ℕ) (h : a * b = n) : Fin a × Fin b ≃ Fin n := finProdFinEquiv.trans (finCongr h)

theorem finProdEquiv_val (a b n : ℕ) (h : a * b = n) (t : Fin a) (r : Fin b) :
    (finProdEquiv a b n h (t, r)).val = b * t.val + r.val := by
  show r.val + b * t.val = b * t.val + r.val
  exact Nat.add_comm _ _
theorem finProdEquiv_symm_fst_val (a b n : ℕ) (h : a * b = n) (k : Fin n) :
    ((finProdEquiv a b n h).symm k).1.val = k.val / b := rfl
theorem finProdEquiv_symm_snd_val (a b n : ℕ) (h : a * b = n) (k : Fin n) :
    ((finProdEquiv a b n h).symm k).2.val = k.val % b := rfl

variable {M : Type*} [AddCommMonoid M]

theorem sum_finProd (a b n : ℕ) (h : a * b = n) (f : Fin n → M) :
    ∑ p : Fin a × Fin b, f (finProdEquiv a b n h p) = ∑ k : Fin n, f k :=
  Equiv.sum_comp (finProdEquiv a b n h) f
theorem sum_sum_finProd (a b n : ℕ) (h : a * b = n) (f : Fin n → M) :
    ∑ t : Fin a, ∑ r : Fin b, f (finProdEquiv a b n h (t, r)) = ∑ k : Fin n, f k := by
  rw [← sum_finProd a b n h f, Fintype.sum_prod_type]
/-- The same for a sum restricted by a predicate. -/
theorem sum_filter_finProd (a b n : ℕ) (h : a * b = n) (P : Fin n → Prop) [DecidablePred P] (f : Fin n → M) :
    ∑ t : Fin a, ∑ r ∈ Finset.univ.filter (fun r : Fin b => P (finProdEquiv a b n h (t, r))), f (finProdEquiv a b n h (t, r))
      = ∑ k ∈ Finset.univ.filter P, f k := by
  rw [Finset.sum_filter, ← sum_sum_finProd a b n h fun k => if P k then f k else 0]
  exact Finset.sum_congr rfl fun t _ => Finset.sum_filter _ _

/-- Ten blocks of 5000 rows: the pair (t, r) is row 5000 * t + r of 50000. -/
abbrev rowsEquiv : Fin 10 × Fin 5000 ≃ Fin 50000 := finProdEquiv 10 5000 50000 (by norm_num)
/-- Eight chunks of 200000 edges: the pair (c, e) is edge 200000 * c + e of 1600000. -/
abbrev edgesEquiv : Fin 8 × Fin 200000 ≃ Fin 1600000 := finProdEquiv 8 200000 1600000 (by norm_num)

theorem rowsEquiv_val (t : Fin 10) (r : Fin 5000) : (rowsEquiv (t, r)).val = 5000 * t.val + r.val :=
  finProdEquiv_val 10 5000 50000 _ t r
theorem edgesEquiv_val (c : Fin 8) (e : Fin 200000) : (edgesEquiv (c, e)).val = 200000 * c.val + e.val :=
  finProdEquiv_val 8 200000 1600000 _ c e
theorem sum_rows (f : Fin 50000 → M) : ∑ t : Fin 10, ∑ r : Fin 5000, f (rowsEquiv (t, r)) = ∑ k : Fin 50000, f k :=
  sum_sum_finProd 10 5000 50000 _ f
theorem sum_edges (f : Fin 1600000 → M) : ∑ c : Fin 8, ∑ e : Fin 200000, f (edgesEquiv (c, e)) = ∑ k : Fin 1600000, f k :=
  sum_sum_finProd 8 200000 1600000 _ f

end Reindex

end Cert.Hand.LibStats

end
-- ==== Proof.Finite.lean ====
/-
  From the precondition to real entries.

  The precondition says of each of the twelve argument arrays that every entry x has |x| < +∞, all twelve
  statements joined by "and". An extended real x with |x| < +∞ is neither infinity, so it is a real number.
-/
import proofs.«172389_j14018773254229_1_alg».proof.Defs
import proofs.«172389_j14018773254229_1_alg».proof.Proof.Gen.Pre_finite_inputs
import proofs.«172389_j14018773254229_1_alg».proof.Proof.LibStats
import Idealize.ShloMosaic.Lib.ReduceAll
import Idealize.ShloMosaic.Lib.ValueIdx

noncomputable section

namespace Cert.Hand.Finite

open Idealize.ShloMosaic Cert.Pre_finite_inputs Cert.Hand.LibStats

/-- The scalar shape has exactly one index. -/
private instance subsingleton_scalar_idx : Subsingleton S_.Idx := ⟨fun a b => funext fun d => d.elim0⟩

/-- The f32 pattern 0x7F800000 (all-ones exponent, zero fraction, sign clear) denotes +∞. -/
private theorem inf_bits : Ideal.ofBits .f32 0x7F800000#32 = (⊤ : EReal) := by
  simp [Ideal.ofBits, Ideal.ieee]

/-- An extended real whose absolute value max x (-x) lies strictly below +∞ is a real number:
    at x = +∞ the maximum is +∞, and at x = -∞ its negation +∞ is the maximum. -/
private theorem isReal_of_abs_lt_top (x : EReal) (hx : max x (-x) < ⊤) : IsReal x := by
  induction x using EReal.rec with
  | bot => simp at hx
  | top => simp at hx
  | coe r => exact isReal_coe r

/-- A one-bit word made from a truth value is 1 exactly when the value is true. -/
private theorem ofBool_eq_one' {b : Bool} (hb : BitVec.ofBool b = 1#1) : b = true := by
  cases b
  · exact absurd hb (by decide)
  · rfl

/-- The comparison |x| < +∞ coming out 1 says that x is a real number. -/
private theorem isReal_of_cmp (x : EReal)
    (hx : Ideal.cmp .olt (max x (-x)) (Ideal.ofBits .f32 0x7F800000#32) = 1#1) : IsReal x := by
  rw [inf_bits] at hx
  exact isReal_of_abs_lt_top x (of_decide_eq_true (ofBool_eq_one' hx))

/-- One conjunct of the precondition, for an array of any shape: if the conjunction over all indices of
    the comparisons |a i| < +∞ is 1, every entry of a is a real number. -/
private theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1)
    (i : s.Idx) : IsReal (a i) :=
  isReal_of_cmp (a i) (Host.reduce_andi_all _ init hr hu j e i)

/-- Every entry of every argument is a real number when the precondition's predicate is all ones. -/
theorem real_of_pre [Cert.Pre_finite_inputs.Facts]
    (a0 a1 : FVec Ideal S16384x1024 .f32) (a2 : FVec Ideal S1024x1024 .f32) (a3 : FVec Ideal S1024 .f32)
    (a4 : FVec Ideal S3072x1024 .f32) (a5 : FVec Ideal S3072 .f32) (a6 : FVec Ideal S1024x1024 .f32) (a7 : FVec Ideal S1024 .f32)
    (a8 : FVec Ideal S3072x1024 .f32) (a9 : FVec Ideal S3072 .f32) (a10 : FVec Ideal S1024x1024 .f32) (a11 : FVec Ideal S1024 .f32)
    (h : Cert.Pre_finite_inputs.fn (F := Ideal) a0 a1 a2 a3 a4 a5 a6 a7 a8 a9 a10 a11 = (fun _ => 1#1)) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i)) := by
  -- the predicate's one entry, as the twelve-fold conjunction it is
  have h0 := congrFun h ValueIdx.ix0
  dsimp only [fn, fn_part1, fn_part2, fn_part3] at h0
  simp only [Idealize.ShloMosaic.andi, IntOp.andi_eq_one] at h0
  obtain ⟨⟨⟨⟨⟨⟨⟨⟨⟨⟨⟨e0, e1⟩, e2⟩, e3⟩, e4⟩, e5⟩, e6⟩, e7⟩, e8⟩, e9⟩, e10⟩, e11⟩ := h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7, real_of_all a8 _ _ _ _ _ e8,
    real_of_all a9 _ _ _ _ _ e9, real_of_all a10 _ _ _ _ _ e10, real_of_all a11 _ _ _ _ _ e11⟩

end Cert.Hand.Finite

end
-- ==== Proof.Layers.lean ====
/-
  The two programs' layers, as functions of whole arrays over the extended reals.

  A DENSE LAYER takes a matrix X with 16384 rows and 1024 columns, a square weight W and a bias b, and
  returns the matrix whose row r is  W · (row r of X) + b :  entry (r, n) is  ∑ₖ X(r,k) · W(n,k) + b(n).

  ONE-KEY ATTENTION with eight heads of width 128: for a query Q, a key K and a value V (one row each per
  sample), head h of sample r has ONE score  s(r,h) = (∑_d Q(r,128h+d) · K(r,128h+d)) / √128 ; its softmax
  runs over that single score, so the weight is  exp(s − max(−∞, s)) / (0 + exp(s − max(−∞, s))) , and the
  result is the weight times V. When the score is a real number the weight is exp 0 / exp 0 = 1.
-/
import proofs.«172389_j14018773254229_1_alg».proof.Proof.Gen.ReferenceIdeal
import proofs.«172389_j14018773254229_1_alg».proof.Proof.LibStats
import Idealize.ShloMosaic.PureOps.Ideal.Laws
import Idealize.ShloMosaic.Lib.Pipeline.Value
import Idealize.ShloMosaic.Lib.ValueIdx

noncomputable section

namespace Cert.Hand.Layers

open Cert.ReferenceIdeal Cert.ReferenceIdeal.Gen Idealize.ShloMosaic Idealize.ShloMosaic.TcCoe Idealize.SL.Sem
open Cert.Hand.LibStats

/-- Row r of the result is  W · (row r of X) + b. -/
def dense (X : FVec Ideal S16384x1024 .f32) (W : FVec Ideal S1024x1024 .f32) (b : FVec Ideal S1024 .f32) :
    FVec Ideal S16384x1024 .f32 :=
  addf (Host.dotGeneral dot_S16384x1024_S1024x1024_S16384x1024_1_0_0_1_n_n none X
      (transpose S1024x1024 [1, 0] W transposes_S1024x1024_S1024x1024_1_0))
    (broadcastInDim S16384x1024 ![0, 1] bcast_S1x1024_S16384x1024_0_1 (broadcastInDim S1x1024 ![1] bcast_S1024_S1x1024_1 b))

/-- The one score of each head of each sample: the head's 128 products summed, over √128. -/
def score (Q K : FVec Ideal S16384x1024 .f32) : FVec Ideal S16384x8 .f32 :=
  Host.divf (Host.reduceAdd (mulf (shapeCast _ Q shapeCasts_S16384x1024_S16384x8x128) (shapeCast _ K shapeCasts_S16384x1024_S16384x8x128))
      (constant S_ .f32 0x00000000#32) reducesTo_S16384x8x128_S16384x8_d2 h_S_)
    (broadcastInDim S16384x8 ![] bcast_S_S16384x8 (Host.sqrt (constant S_ .f32 0x43000000#32)))

/-- A score set out along a third axis of length one. -/
def col (s : FVec Ideal S16384x8 .f32) : FVec Ideal S16384x8x1 .f32 :=
  broadcastInDim S16384x8x1 ![0, 1] bcast_S16384x8_S16384x8x1_0_1 s

/-- exp (s − max(−∞, the maximum of the one score)). -/
def expShift (s : FVec Ideal S16384x8 .f32) : FVec Ideal S16384x8x1 .f32 :=
  Host.exp (subf (col s) (broadcastInDim S16384x8x1 ![0, 1] bcast_S16384x8_S16384x8x1_0_1
    (maximumf (broadcastInDim S16384x8 ![] bcast_S_S16384x8 (constant S_ .f32 0xFF800000#32))
      (Host.reduce FloatOps.maximumf (col s) (constant S_ .f32 0xFF800000#32) reducesTo_S16384x8x1_S16384x8_d2 h_S_))))

/-- The softmax over the one score. -/
def weight (s : FVec Ideal S16384x8 .f32) : FVec Ideal S16384x8x1 .f32 :=
  Host.divf (expShift s) (broadcastInDim S16384x8x1 ![0, 1] bcast_S16384x8_S16384x8x1_0_1
    (Host.reduceAdd (expShift s) (constant S_ .f32 0x00000000#32) reducesTo_S16384x8x1_S16384x8_d2 h_S_))

/-- The attention of each sample's one query on its one key: the softmax weight times the value, head by head. -/
def attend (Q K V : FVec Ideal S16384x1024 .f32) : FVec Ideal S16384x1024 .f32 :=
  shapeCast _ (mulf (broadcastInDim S16384x8x128 ![0, 1, 2] bcast_S16384x8x1_S16384x8x128_0_1_2 (weight (score Q K)))
    (shapeCast _ V shapeCasts_S16384x1024_S16384x8x128)) shapeCasts_S16384x8x128_S16384x1024

/-- Rows o, …, o + 1023 of a packed weight of 3072 rows. -/
abbrev rowsAt (o : Nat) (W : FVec Ideal S3072x1024 .f32) (h : S3072x1024.Slices ![o, 0] S1024x1024) : FVec Ideal S1024x1024 .f32 :=
  extractStridedSlice S1024x1024 ![o, 0] W h
/-- Entries o, …, o + 1023 of a packed bias of 3072 entries. -/
abbrev entriesAt (o : Nat) (b : FVec Ideal S3072 .f32) (h : S3072.Slices ![o] S1024) : FVec Ideal S1024 .f32 :=
  extractStridedSlice S1024 ![o] b h

end Cert.Hand.Layers

end
-- ==== Proof.Model.lean ====
/-
  The three results as compositions of layers.

  FUSED is the dense layer of the sum of the two feature matrices. Each modality's output is computed from
  FUSED in two ways. THROUGH ATTENTION: a query from the modality's own features, a key and a value from
  FUSED (the three row blocks 0, 1024, 2048 of the packed weight and bias), one-key attention, then the
  output layer. THROUGH THE VALUE ALONE: the value layer of FUSED, then the output layer.
-/
import proofs.«172389_j14018773254229_1_alg».proof.Proof.Layers

noncomputable section

namespace Cert.Hand.Layers

open Cert.ReferenceIdeal Cert.ReferenceIdeal.Gen Idealize.ShloMosaic Idealize.ShloMosaic.TcCoe Idealize.SL.Sem

/-- The fuse projection of the summed features. -/
def fuse (a0 a1 : FVec Ideal S16384x1024 .f32) (a2 : FVec Ideal S1024x1024 .f32) (a3 : FVec Ideal S1024 .f32) :
    FVec Ideal S16384x1024 .f32 :=
  dense (addf a0 a1) a2 a3

/-- Query from X, key and value from F, one-key attention, output layer. -/
def viaAttention (X F : FVec Ideal S16384x1024 .f32) (w : FVec Ideal S3072x1024 .f32) (b : FVec Ideal S3072 .f32)
    (ow : FVec Ideal S1024x1024 .f32) (ob : FVec Ideal S1024 .f32) : FVec Ideal S16384x1024 .f32 :=
  dense (attend
      (dense X (rowsAt 0 w slices_S3072x1024_S1024x1024_0_0) (entriesAt 0 b slices_S3072_S1024_0))
      (dense F (rowsAt 1024 w slices_S3072x1024_S1024x1024_1024_0) (entriesAt 1024 b slices_S3072_S1024_1024))
      (dense F (rowsAt 2048 w slices_S3072x1024_S1024x1024_2048_0) (entriesAt 2048 b slices_S3072_S1024_2048)))
    ow ob

/-- Value layer of F, output layer. -/
def viaValue (F : FVec Ideal S16384x1024 .f32) (w : FVec Ideal S3072x1024 .f32) (b : FVec Ideal S3072 .f32)
    (ow : FVec Ideal S1024x1024 .f32) (ob : FVec Ideal S1024 .f32) : FVec Ideal S16384x1024 .f32 :=
  dense (dense F (rowsAt 2048 w slices_S3072x1024_S1024x1024_2048_0) (entriesAt 2048 b slices_S3072_S1024_2048)) ow ob

end Cert.Hand.Layers

end
-- ==== Proof.Attend.lean ====
/-
  Real entries stay real through a dense layer, and one-key attention returns its value.

  A dense layer's entry is a finite sum of products of entries plus a bias entry: real when all of those are.
  A score is such a sum over √128 (a nonzero real), so it is real; then  s − max(−∞, s) = 0 ,  exp 0 = 1 ,
  the sum over the one key is  0 + 1 , the weight is  1 / 1 = 1 , and  1 · V = V .
-/
import proofs.«172389_j14018773254229_1_alg».proof.Proof.Layers

noncomputable section

namespace Cert.Hand.Layers

open Cert.ReferenceIdeal Cert.ReferenceIdeal.Gen Idealize.ShloMosaic Idealize.ShloMosaic.TcCoe Idealize.SL.Sem
open Cert.Hand.LibStats

/-- The sum of two matrices of reals is a matrix of reals. -/
theorem add_real (X Y : FVec Ideal S16384x1024 .f32) (hX : ∀ i, IsReal (X i)) (hY : ∀ i, IsReal (Y i)) :
    ∀ i, IsReal (addf X Y i) :=
  fun i => (hX i).addf (hY i)

/-- Rows of a matrix of reals are reals. -/
theorem rowsAt_real (o : Nat) (W : FVec Ideal S3072x1024 .f32) (h : S3072x1024.Slices ![o, 0] S1024x1024)
    (hW : ∀ i, IsReal (W i)) : ∀ i, IsReal (rowsAt o W h i) :=
  fun i => hW _

/-- Entries of a vector of reals are reals. -/
theorem entriesAt_real (o : Nat) (b : FVec Ideal S3072 .f32) (h : S3072.Slices ![o] S1024)
    (hb : ∀ i, IsReal (b i)) : ∀ i, IsReal (entriesAt o b h i) :=
  fun i => hb _

/-- A dense layer of reals is a matrix of reals: entry (r, n) is a sum over k of products  X(r,k) · W(n,k) ,
    plus the bias entry  b(n) . -/
theorem dense_real (X : FVec Ideal S16384x1024 .f32) (W : FVec Ideal S1024x1024 .f32) (b : FVec Ideal S1024 .f32)
    (hX : ∀ i, IsReal (X i)) (hW : ∀ i, IsReal (W i)) (hb : ∀ i, IsReal (b i)) : ∀ i, IsReal (dense X W b i) := by
  intro i
  unfold dense
  refine IsReal.addf ?_ (hb _)
  simp only [Host.dotGeneral]
  rw [Ideal.dotGeneral_apply]
  exact IsReal.sum_univ _ fun k => (hX _).mul (hW _)

/-! ## One-key attention -/

/-- The word 0x43000000 is the float 128. -/
private theorem ofBits_128_f32 : Ideal.ofBits .f32 0x43000000#32 = ((128 : ℝ) : EReal) := by
  simp [Ideal.ofBits, Ideal.ieee, -EReal.coe_mul]; norm_num

/-- The word 0xFF800000 is −∞. -/
private theorem ofBits_negInf_f32 : Ideal.ofBits .f32 0xFF800000#32 = ⊥ := by
  simp [Ideal.ofBits, Ideal.ieee]

/-- A sum over an index range of length one is its one term. -/
private theorem sum_fin_one {M : Type*} [AddCommMonoid M] (n : ℕ) (hn : n = 1) (g : Fin n → M) :
    ∑ k, g k = g ⟨0, by omega⟩ := by
  subst hn
  rw [Finset.univ_unique, Finset.sum_singleton]
  rfl

/-- A fold over an index range of length one is the operation on its one term and the initial value. -/
private theorem fold_fin_one {α : Type*} (f : α → α → α) [Std.Commutative f] [Std.Associative f] (b : α) (n : ℕ) (hn : n = 1)
    (g : Fin n → α) : (Finset.univ : Finset (Fin n)).fold f b g = f (g ⟨0, by omega⟩) b := by
  subst hn
  rw [Finset.univ_unique, Finset.fold_singleton]
  rfl

/-- One over one is one. -/
private theorem div_one_one : Ideal.div 1 1 = 1 := by
  have h := div_coe_coe 1 1 one_ne_zero
  rw [div_one, EReal.coe_one] at h
  exact h

/-- A real number less itself is 0, whose exponential is 1. -/
private theorem exp_sub_self {x : EReal} (hx : IsReal x) : Ideal.exp (x - x) = 1 := by
  obtain ⟨r, rfl⟩ := hx
  rw [← EReal.coe_sub, sub_self, Ideal.exp_coe, Real.exp_zero, EReal.coe_one]

/-- The third axis of the scores is the one summed over, in both of its lengths. -/
private theorem reduces_S16384x8x128_d2 : S16384x8x128.Reduces [2] S16384x8 := by decide
private theorem reduces_S16384x8x1_d2 : S16384x8x1.Reduces [2] S16384x8 := by decide

/-- With a real query and key every score is real: a sum of 128 products of reals, over the nonzero real √128. -/
private theorem score_real (Q K : FVec Ideal S16384x1024 .f32) (hQ : ∀ i, IsReal (Q i)) (hK : ∀ i, IsReal (K i)) :
    ∀ j, IsReal (score Q K j) := by
  intro j
  unfold score
  have hden : broadcastInDim S16384x8 ![] bcast_S_S16384x8 (Host.sqrt (constant (F := Ideal) S_ .f32 0x43000000#32)) j
      = ((Real.sqrt 128 : ℝ) : EReal) := by
    show Ideal.sqrt (Ideal.ofBits .f32 0x43000000#32) = _
    rw [ofBits_128_f32, Ideal.sqrt_coe, if_neg (by norm_num)]
  have hnum : IsReal (Host.reduceAdd (mulf (shapeCast _ Q shapeCasts_S16384x1024_S16384x8x128) (shapeCast _ K shapeCasts_S16384x1024_S16384x8x128))
      (constant (F := Ideal) S_ .f32 0x00000000#32) reducesTo_S16384x8x128_S16384x8_d2 h_S_ j) := by
    simp only [Host.reduceAdd, Ideal.hostReduceAdd_def]
    rw [Ideal.hostReduceAdd_single reducesTo_S16384x8x128_S16384x8_d2 reduces_S16384x8x128_d2]
    refine IsReal.add ?_ (IsReal.sum_univ _ fun k => (hQ _).mul (hK _))
    show IsReal (Ideal.ofBits .f32 0x00000000#32)
    rw [Ideal.ofBits_zero_f32]
    exact isReal_zero
  show IsReal (Ideal.div _ _)
  rw [hden]
  exact hnum.div_coe (Real.sqrt_pos.mpr (by norm_num)).ne'

/-- The maximum over the one score, from −∞, is that score. -/
private theorem reduce_max_col (s : FVec Ideal S16384x8 .f32) (j : S16384x8.Idx) :
    Host.reduce FloatOps.maximumf (col s) (constant (F := Ideal) S_ .f32 0xFF800000#32) reducesTo_S16384x8x1_S16384x8_d2 h_S_ j = s j := by
  rw [Host.reduce_eq_fold_single FloatOps.maximumf (col s) _ reducesTo_S16384x8x1_S16384x8_d2 reduces_S16384x8x1_d2 h_S_ j]
  rw [fold_fin_one _ _ (S16384x8x1.size 2) rfl]
  show max (s _) (Ideal.ofBits .f32 0xFF800000#32) = s j
  rw [ofBits_negInf_f32, max_bot_right]
  exact congrArg s (funext fun a => Fin.ext (match a with | ⟨0, _⟩ => rfl | ⟨1, _⟩ => rfl))

/-- For a real score  s − max(−∞, s) = 0  and  exp 0 = 1 . -/
private theorem expShift_one (s : FVec Ideal S16384x8 .f32) (hs : ∀ j, IsReal (s j)) : ∀ i, expShift s i = 1 := by
  intro i
  unfold expShift
  show Ideal.exp (s _ - max (Ideal.ofBits .f32 0xFF800000#32) (Host.reduce FloatOps.maximumf (col s) _ _ _ _)) = 1
  rw [reduce_max_col, ofBits_negInf_f32, max_bot_left]
  exact exp_sub_self (hs _)

/-- The sum of the one exponential, from 0, is  0 + 1 = 1 . -/
private theorem sum_expShift (s : FVec Ideal S16384x8 .f32) (hs : ∀ j, IsReal (s j)) (j : S16384x8.Idx) :
    Host.reduceAdd (expShift s) (constant (F := Ideal) S_ .f32 0x00000000#32) reducesTo_S16384x8x1_S16384x8_d2 h_S_ j = 1 := by
  simp only [Host.reduceAdd, Ideal.hostReduceAdd_def]
  rw [Ideal.hostReduceAdd_single reducesTo_S16384x8x1_S16384x8_d2 reduces_S16384x8x1_d2]
  rw [sum_fin_one (S16384x8x1.size 2) rfl, expShift_one s hs]
  show Ideal.ofBits .f32 0x00000000#32 + 1 = 1
  rw [Ideal.ofBits_zero_f32, zero_add]

/-- With real scores every softmax weight is 1: the one exponential is 1, the sum over the one key is 1,
    and  1 / 1 = 1 . -/
private theorem weight_one (s : FVec Ideal S16384x8 .f32) (hs : ∀ j, IsReal (s j)) : ∀ i, weight s i = 1 := by
  intro i
  have hsum : Host.reduceAdd (expShift s) (constant (F := Ideal) S_ .f32 0x00000000#32) reducesTo_S16384x8x1_S16384x8_d2 h_S_
      = fun _ => 1 := funext (sum_expShift s hs)
  have hexp : expShift s = fun _ => 1 := funext (expShift_one s hs)
  unfold weight
  rw [hsum, hexp]
  exact div_one_one

/-- With a real query and key every score is real, every softmax weight is 1, and the attention is the value. -/
theorem attend_eq (Q K V : FVec Ideal S16384x1024 .f32) (hQ : ∀ i, IsReal (Q i)) (hK : ∀ i, IsReal (K i)) :
    attend Q K V = V := by
  unfold attend
  have h1 : mulf (broadcastInDim S16384x8x128 ![0, 1, 2] bcast_S16384x8x1_S16384x8x128_0_1_2 (weight (score Q K)))
      (shapeCast _ V shapeCasts_S16384x1024_S16384x8x128) = shapeCast _ V shapeCasts_S16384x1024_S16384x8x128 := by
    funext i
    show weight (score Q K) _ * _ = _
    rw [weight_one _ (score_real Q K hQ hK), one_mul]
  rw [h1, shapeCast_shapeCast]

end Cert.Hand.Layers

end
-- ==== Proof.RefValue.lean ====
/-
  The reference's results as compositions of layers, and with the attention weight 1.

  The reference's run ends with each result at one long term of the arguments. Read layer by layer that term
  is: for the first two results, query / key / value layers, one-key attention and the output layer; for the
  third, the fuse projection. With real arguments every query and key entry is real, so the attention
  returns its value and the first two results are the value layer followed by the output layer.
-/
import proofs.«172389_j14018773254229_1_alg».proof.Proof.Gen.ReferenceIdeal.Run
import proofs.«172389_j14018773254229_1_alg».proof.Proof.Model
import proofs.«172389_j14018773254229_1_alg».proof.Proof.Attend

set_option maxRecDepth 16384

noncomputable section

namespace Cert.Hand.RefValue

open Cert.ReferenceIdeal Cert.ReferenceIdeal.Gen Cert.ReferenceIdeal.Value
open Idealize.ShloMosaic Idealize.ShloMosaic.TcCoe Idealize.SL.Sem
open Cert.Hand.Layers Cert.Hand.LibStats

/-- On real arguments the attention weight is 1: through attention is through the value alone. -/
theorem viaAttention_eq (X F : FVec Ideal S16384x1024 .f32) (w : FVec Ideal S3072x1024 .f32) (b : FVec Ideal S3072 .f32)
    (ow : FVec Ideal S1024x1024 .f32) (ob : FVec Ideal S1024 .f32)
    (hX : ∀ i, IsReal (X i)) (hF : ∀ i, IsReal (F i)) (hw : ∀ i, IsReal (w i)) (hb : ∀ i, IsReal (b i)) :
    viaAttention X F w b ow ob = viaValue F w b ow ob := by
  unfold viaAttention viaValue
  rw [attend_eq _ _ _
    (dense_real X _ _ hX (rowsAt_real 0 w _ hw) (entriesAt_real 0 b _ hb))
    (dense_real F _ _ hF (rowsAt_real 1024 w _ hw) (entriesAt_real 1024 b _ hb))]

variable (m : (ℓ : Loc nD τ sig) → Buf (Elt Ideal) ℓ) (c : Dev nD)

abbrev r0 : FVec Ideal S16384x1024 .f32 := m ((c.tc : Thread nD τ).loc main_arg0)
abbrev r1 : FVec Ideal S16384x1024 .f32 := m ((c.tc : Thread nD τ).loc main_arg1)
abbrev r2 : FVec Ideal S1024x1024 .f32 := m ((c.tc : Thread nD τ).loc main_arg2)
abbrev r3 : FVec Ideal S1024 .f32 := m ((c.tc : Thread nD τ).loc main_arg3)
abbrev r4 : FVec Ideal S3072x1024 .f32 := m ((c.tc : Thread nD τ).loc main_arg4)
abbrev r5 : FVec Ideal S3072 .f32 := m ((c.tc : Thread nD τ).loc main_arg5)
abbrev r6 : FVec Ideal S1024x1024 .f32 := m ((c.tc : Thread nD τ).loc main_arg6)
abbrev r7 : FVec Ideal S1024 .f32 := m ((c.tc : Thread nD τ).loc main_arg7)
abbrev r8 : FVec Ideal S3072x1024 .f32 := m ((c.tc : Thread nD τ).loc main_arg8)
abbrev r9 : FVec Ideal S3072 .f32 := m ((c.tc : Thread nD τ).loc main_arg9)
abbrev r10 : FVec Ideal S1024x1024 .f32 := m ((c.tc : Thread nD τ).loc main_arg10)
abbrev r11 : FVec Ideal S1024 .f32 := m ((c.tc : Thread nD τ).loc main_arg11)

/-- The first result's term, layer by layer. -/
theorem text_term : res_out0 m c
    = viaAttention (r0 m c) (fuse (r0 m c) (r1 m c) (r2 m c) (r3 m c)) (r4 m c) (r5 m c) (r6 m c) (r7 m c) := by
  show res_main_v52 m c = _
  unfold res_main_v52 viaAttention fuse attend weight expShift col score dense
  rfl

/-- The second result's term, layer by layer. -/
theorem image_term : res_out1 m c
    = viaAttention (r1 m c) (fuse (r0 m c) (r1 m c) (r2 m c) (r3 m c)) (r8 m c) (r9 m c) (r10 m c) (r11 m c) := by
  show res_main_v99 m c = _
  unfold res_main_v99 viaAttention fuse attend weight expShift col score dense
  rfl

end Cert.Hand.RefValue

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.RowLayer.lean ====
/-
  One grid point's work, as row blocks.

  The point t holds rows 512·t, …, 512·t + 511 of the two feature matrices, the whole weights and the whole
  bias rows. Every stage of the body — a sum, a change of float format, a product with a transposed weight
  into a zero accumulator, a bias row added to every row — computes row r of its result from row r of its
  left operand alone, so each payload is the 512-row block at t of the same chain of dense layers applied to
  the whole matrices.
-/
import proofs.«172389_j14018773254229_1_alg».proof.Proof.Gen.KernelIdeal.Skeleton
import proofs.«172389_j14018773254229_1_alg».proof.Proof.Model
import proofs.«172389_j14018773254229_1_alg».proof.Proof.LibRowBlock

noncomputable section

namespace Cert.Hand.Rows

open Cert.KernelIdeal Cert.KernelIdeal.Gen Idealize.ShloMosaic Idealize.ShloMosaic.ValueIdx Cert.RowBlock
open Cert.Hand.Layers (dense fuse viaValue rowsAt entriesAt)

/-- One dense layer on a row block: the block's product with the transposed weight into zero, plus the bias row. -/
theorem layer_rows {t : Nat} {X : FVec Ideal S16384x1024 .f32} {x : FVec Ideal S512x1024 .f32} (H : IsRows 512 t X x)
    (W : FVec Ideal S1024x1024 .f32) (w : FVec Ideal S1024x1024 .bf16) (hw : ∀ i, w i = W i)
    (b : FVec Ideal S1024 .f32) (bb : FVec Ideal S1x1024 .f32) (hc : S1024.ShapeCasts S1x1024)
    (hbb : bb = shapeCast S1x1024 b hc)
    (h1 : FTy.bits .bf16 < FTy.bits .f32) (h2 : S1024x1024.ShapeCasts S1024x1024)
    (h3 : S1024x1024.Transposes [1, 0] S1024x1024) (h4 : S1x1024.ShapeCasts S1x1024) (h5 : S1x1024.Broadcasts S512x1024) :
    IsRows 512 t (dense X W b)
      (addf (matmul dot_S512x1024_S1024x1024_S512x1024_1_0_0_1_n_n none (truncf .bf16 x h1)
          (transpose S1024x1024 [1, 0] (shapeCast S1024x1024 w h2) h3) (constant S512x1024 .f32 0x00000000#32))
        (broadcastTo S512x1024 (shapeCast S1x1024 bb h4) h5)) := by
  subst hbb
  unfold dense
  rw [shapeCast_self w h2, shapeCast_self (shapeCast S1x1024 b hc) h4]
  refine IsRows.add (IsRows.dot (IsRows.trunc H h1) _ _ ⟨rfl, rfl, rfl, rfl, rfl, rfl⟩ ⟨rfl, rfl, rfl, rfl, rfl, rfl⟩ _ _ ?_)
    (IsRows.bias b _ _ hc h5)
  intro k j
  exact hw _

section Payloads

variable {t : Nat} {A0 A1 : FVec Ideal S16384x1024 .f32} {x0 x1 : FVec Ideal S512x1024 .f32}
  (H0 : IsRows 512 t A0 x0) (H1 : IsRows 512 t A1 x1)
  (W2 : FVec Ideal S1024x1024 .f32) (w2 : FVec Ideal S1024x1024 .bf16) (hw2 : ∀ i, w2 i = W2 i)
  (B3 : FVec Ideal S1024 .f32) (b3 : FVec Ideal S1x1024 .f32) (hc : S1024.ShapeCasts S1x1024)
  (hb3 : b3 = shapeCast S1x1024 B3 hc)

include H0 H1 hw2 hb3

/-- The fused block: the dense layer of the summed feature blocks. -/
theorem pay2_rows : IsRows 512 t (fuse A0 A1 W2 B3) (k0_pay2 (F := Ideal) x0 x1 w2 b3) := by
  unfold fuse k0_pay2
  exact layer_rows (IsRows.add H0 H1) W2 w2 hw2 B3 b3 hc hb3 _ _ _ _ _

variable (Wv : FVec Ideal S1024x1024 .f32) (wv : FVec Ideal S1024x1024 .bf16) (hwv : ∀ i, wv i = Wv i)
  (Bv : FVec Ideal S1024 .f32) (bv : FVec Ideal S1x1024 .f32) (hbv : bv = shapeCast S1x1024 Bv hc)
  (Wo : FVec Ideal S1024x1024 .f32) (wo : FVec Ideal S1024x1024 .bf16) (hwo : ∀ i, wo i = Wo i)
  (Bo : FVec Ideal S1024 .f32) (bo : FVec Ideal S1x1024 .f32) (hbo : bo = shapeCast S1x1024 Bo hc)

include hwv hbv hwo hbo

/-- The first output block: value layer then output layer of the fused block. -/
theorem pay4_rows :
    IsRows 512 t (dense (dense (fuse A0 A1 W2 B3) Wv Bv) Wo Bo) (k0_pay4 (F := Ideal) x0 x1 w2 b3 wv bv wo bo) := by
  unfold k0_pay4 k0_pay3
  exact layer_rows (layer_rows (pay2_rows H0 H1 W2 w2 hw2 B3 b3 hc hb3) Wv wv hwv Bv bv hc hbv _ _ _ _ _)
    Wo wo hwo Bo bo hc hbo _ _ _ _ _

/-- The second output block: the same two layers with the other modality's weights. -/
theorem pay1_rows :
    IsRows 512 t (dense (dense (fuse A0 A1 W2 B3) Wv Bv) Wo Bo)
      (k0_pay1 (F := Ideal) (k0_pay3 (F := Ideal) x0 x1 w2 b3) wv bv wo bo) := by
  unfold k0_pay1 k0_pay3
  exact layer_rows (layer_rows (pay2_rows H0 H1 W2 w2 hw2 B3 b3 hc hb3) Wv wv hwv Bv bv hc hbv _ _ _ _ _)
    Wo wo hwo Bo bo hc hbo _ _ _ _ _

end Payloads

end Cert.Hand.Rows

end
-- ==== Proof.Blocks.lean ====
/-
  What each window's block at a grid point is, in terms of the argument arrays.

  The two feature windows move down the rows: at point t their block is rows 512·t, …, 512·t + 511. The five
  weight windows and the five bias windows stay at block (0, 0) and their block is the whole array, which the
  host operations before the launch made from an argument: a weight with its float format changed (the
  identity on extended reals), possibly after taking rows 2048, …, 3071 of a packed weight; a bias of 1024
  entries, possibly entries 2048, …, 3071 of a packed bias, set out as one row.
-/
import proofs.«172389_j14018773254229_1_alg».proof.Proof.Gen.KernelIdeal.Value
import proofs.«172389_j14018773254229_1_alg».proof.Proof.RowLayer
import Idealize.ShloMosaic.Lib.StableHlo.Run

set_option maxRecDepth 16384

noncomputable section

namespace Cert.Hand.Blocks

open Cert.KernelIdeal Cert.KernelIdeal.Gen Cert.KernelIdeal.Value
open Idealize.ShloMosaic Idealize.ShloMosaic.TcCoe Idealize.SL.Sem Idealize.ShloMosaic.ValueIdx Cert.RowBlock
open Idealize.ShloMosaic.Pipeline (Dat)

variable (m : (ℓ : Loc nD τ sig) → Buf (Elt Ideal) ℓ)

/-! ## The argument arrays -/

abbrev a0 (c : Dev nD) : FVec Ideal S16384x1024 .f32 := m ((c : Thread nD τ).loc main_arg0)
abbrev a1 (c : Dev nD) : FVec Ideal S16384x1024 .f32 := m ((c : Thread nD τ).loc main_arg1)
abbrev a2 (c : Dev nD) : FVec Ideal S1024x1024 .f32 := m ((c : Thread nD τ).loc main_arg2)
abbrev a3 (c : Dev nD) : FVec Ideal S1024 .f32 := m ((c : Thread nD τ).loc main_arg3)
abbrev a4 (c : Dev nD) : FVec Ideal S3072x1024 .f32 := m ((c : Thread nD τ).loc main_arg4)
abbrev a5 (c : Dev nD) : FVec Ideal S3072 .f32 := m ((c : Thread nD τ).loc main_arg5)
abbrev a6 (c : Dev nD) : FVec Ideal S1024x1024 .f32 := m ((c : Thread nD τ).loc main_arg6)
abbrev a7 (c : Dev nD) : FVec Ideal S1024 .f32 := m ((c : Thread nD τ).loc main_arg7)
abbrev a8 (c : Dev nD) : FVec Ideal S3072x1024 .f32 := m ((c : Thread nD τ).loc main_arg8)
abbrev a9 (c : Dev nD) : FVec Ideal S3072 .f32 := m ((c : Thread nD τ).loc main_arg9)
abbrev a10 (c : Dev nD) : FVec Ideal S1024x1024 .f32 := m ((c : Thread nD τ).loc main_arg10)
abbrev a11 (c : Dev nD) : FVec Ideal S1024 .f32 := m ((c : Thread nD τ).loc main_arg11)

/-! ## The block indices, decided over the 32 grid points -/

/-- The feature windows and the three result windows are at block (t, 0). -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_12.index t (0 : Fin 2) = t.val ∧ win0_12.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- The weight and bias windows are at block (0, 0). -/
theorem idx_fixed : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-! ## The feature blocks are row blocks -/

theorem rows0 (c : Dev nD) (t : Fin cfg0.N) :
    IsRows 512 t.val (a0 m c) (iblk m c 0 t : Vec Ideal S512x1024 .f32) := by
  intro p j r hr
  obtain ⟨e0, e1, -⟩ := idx_moving t
  unfold iblk
  rw [View.read_apply]
  show V m c main_arg0 _ = m ((c : Thread nD τ).loc main_arg0) _
  rw [V_main_arg0]
  refine congrArg _ (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * j.val = j.val; rw [e1]; omega

theorem rows1 (c : Dev nD) (t : Fin cfg0.N) :
    IsRows 512 t.val (a1 m c) (iblk m c 1 t : Vec Ideal S512x1024 .f32) := by
  intro p j r hr
  obtain ⟨-, -, e0, e1, -⟩ := idx_moving t
  unfold iblk
  rw [View.read_apply]
  show V m c main_arg1 _ = m ((c : Thread nD τ).loc main_arg1) _
  rw [V_main_arg1]
  refine congrArg _ (funext fun a => Fin.ext ?_)
  match a with
  | ⟨0, _⟩ => show win0_1.index t (0 : Fin 2) * 512 + 1 * p.val = r.val; rw [e0, hr]; omega
  | ⟨1, _⟩ => show win0_1.index t (1 : Fin 2) * 1024 + 1 * j.val = j.val; rw [e1]; omega

/-! ## What the host operations before the launch leave in the staged arrays -/

open Cert.Hand.Layers (rowsAt entriesAt)

theorem V_v8 (c : Dev nD) : (V m c main_v8 : FVec Ideal S1024x1024 .bf16) = truncf .bf16 (a2 m c) bitsLt_bf16_f32 := by
  dsimp only [V, hostOps0]; after_results
theorem V_v9 (c : Dev nD) : (V m c main_v9 : FVec Ideal S1024x1024 .bf16) = truncf .bf16 (a6 m c) bitsLt_bf16_f32 := by
  dsimp only [V, hostOps0]; after_results
theorem V_v10 (c : Dev nD) : (V m c main_v10 : FVec Ideal S1024x1024 .bf16) = truncf .bf16 (a10 m c) bitsLt_bf16_f32 := by
  dsimp only [V, hostOps0]; after_results
theorem V_v1 (c : Dev nD) : (V m c main_v1 : FVec Ideal S1024x1024 .bf16)
    = truncf .bf16 (extractStridedSlice S1024x1024 ![2048, 0] (a4 m c) slices_S3072x1024_S1024x1024_2048_0) bitsLt_bf16_f32 := by
  dsimp only [V, hostOps0]; after_results
theorem V_v5 (c : Dev nD) : (V m c main_v5 : FVec Ideal S1024x1024 .bf16)
    = truncf .bf16 (extractStridedSlice S1024x1024 ![2048, 0] (a8 m c) slices_S3072x1024_S1024x1024_2048_0) bitsLt_bf16_f32 := by
  dsimp only [V, hostOps0]; after_results
theorem V_v11 (c : Dev nD) : (V m c main_v11 : FVec Ideal S1x1024 .f32) = shapeCast S1x1024 (a3 m c) shapeCasts_S1024_S1x1024 := by
  dsimp only [V, hostOps0]; after_results; rfl
theorem V_v12 (c : Dev nD) : (V m c main_v12 : FVec Ideal S1x1024 .f32) = shapeCast S1x1024 (a7 m c) shapeCasts_S1024_S1x1024 := by
  dsimp only [V, hostOps0]; after_results; rfl
theorem V_v13 (c : Dev nD) : (V m c main_v13 : FVec Ideal S1x1024 .f32) = shapeCast S1x1024 (a11 m c) shapeCasts_S1024_S1x1024 := by
  dsimp only [V, hostOps0]; after_results; rfl
theorem V_v3 (c : Dev nD) : (V m c main_v3 : FVec Ideal S1x1024 .f32)
    = shapeCast S1x1024 (extractStridedSlice S1024 ![2048] (a5 m c) slices_S3072_S1024_2048) shapeCasts_S1024_S1x1024 := by
  dsimp only [V, hostOps0]; after_results; rfl
theorem V_v7 (c : Dev nD) : (V m c main_v7 : FVec Ideal S1x1024 .f32)
    = shapeCast S1x1024 (extractStridedSlice S1024 ![2048] (a9 m c) slices_S3072_S1024_2048) shapeCasts_S1024_S1x1024 := by
  dsimp only [V, hostOps0]; after_results; rfl

/-! ## The weight and bias blocks are the whole staged arrays -/

/-- The fuse weight's block, entry by entry (the change of float format is the identity on extended reals). -/
theorem w2 (c : Dev nD) (t : Fin cfg0.N) (i : S1024x1024.Idx) :
    (iblk m c 2 t : Vec Ideal S1024x1024 .bf16) i = a2 m c i := by
  obtain ⟨⟨e0, e1⟩, -⟩ := idx_fixed t
  unfold iblk
  rw [View.read_apply]
  show (V m c main_v8 : FVec Ideal S1024x1024 .bf16) _ = _
  rw [V_v8]
  show a2 m c _ = a2 m c i
  refine congrArg _ (funext fun a => Fin.ext ?_)
  match a with
  | ⟨0, _⟩ => show win0_2.index t (0 : Fin 2) * 1024 + 1 * (i 0).val = (i 0).val; rw [e0]; omega
  | ⟨1, _⟩ => show win0_2.index t (1 : Fin 2) * 1024 + 1 * (i 1).val = (i 1).val; rw [e1]; omega

/-- The fuse bias's block: the bias set out as one row. -/
theorem b3 (c : Dev nD) (t : Fin cfg0.N) :
    (iblk m c 3 t : Vec Ideal S1x1024 .f32) = shapeCast S1x1024 (a3 m c) shapeCasts_S1024_S1x1024 := by
  obtain ⟨-, ⟨e0, e1⟩, -⟩ := idx_fixed t
  funext i
  unfold iblk
  rw [View.read_apply]
  show (V m c main_v11 : FVec Ideal S1x1024 .f32) _ = _
  rw [V_v11]
  refine congrArg _ (funext fun a => Fin.ext ?_)
  match a with
  | ⟨0, _⟩ => show win0_3.index t (0 : Fin 2) * 1 + 1 * (i 0).val = (i 0).val; rw [e0]; omega
  | ⟨1, _⟩ => show win0_3.index t (1 : Fin 2) * 1024 + 1 * (i 1).val = (i 1).val; rw [e1]; omega

/-- The first value weight's block: rows 2048, …, 3071 of the packed weight. -/
theorem w4 (c : Dev nD) (t : Fin cfg0.N) (i : S1024x1024.Idx) :
    (iblk m c 4 t : Vec Ideal S1024x1024 .bf16) i
      = extractStridedSlice S1024x1024 ![2048, 0] (a4 m c) slices_S3072x1024_S1024x1024_2048_0 i := by
  obtain ⟨-, -, ⟨e0, e1⟩, -⟩ := idx_fixed t
  unfold iblk
  rw [View.read_apply]
  show (V m c main_v1 : FVec Ideal S1024x1024 .bf16) _ = _
  rw [V_v1]
  show extractStridedSlice S1024x1024 ![2048, 0] (a4 m c) slices_S3072x1024_S1024x1024_2048_0 _ = _
  refine congrArg _ (funext fun a => Fin.ext ?_)
  match a with
  | ⟨0, _⟩ => show win0_4.index t (0 : Fin 2) * 1024 + 1 * (i 0).val = (i 0).val; rw [e0]; omega
  | ⟨1, _⟩ => show win0_4.index t (1 : Fin 2) * 1024 + 1 * (i 1).val = (i 1).val; rw [e1]; omega

/-- The first value bias's block: entries 2048, …, 3071 of the packed bias, as one row. -/
theorem b5 (c : Dev nD) (t : Fin cfg0.N) :
    (iblk m c 5 t : Vec Ideal S1x1024 .f32)
      = shapeCast S1x1024 (extractStridedSlice S1024 ![2048] (a5 m c) slices_S3072_S1024_2048) shapeCasts_S1024_S1x1024 := by
  obtain ⟨-, -, -, ⟨e0, e1⟩, -⟩ := idx_fixed t
  funext i
  unfold iblk
  rw [View.read_apply]
  show (V m c main_v3 : FVec Ideal S1x1024 .f32) _ = _
  rw [V_v3]
  refine congrArg _ (funext fun a => Fin.ext ?_)
  match a with
  | ⟨0, _⟩ => show win0_5.index t (0 : Fin 2) * 1 + 1 * (i 0).val = (i 0).val; rw [e0]; omega
  | ⟨1, _⟩ => show win0_5.index t (1 : Fin 2) * 1024 + 1 * (i 1).val = (i 1).val; rw [e1]; omega

/-- The first output weight's block. -/
theorem w6 (c : Dev nD) (t : Fin cfg0.N) (i : S1024x1024.Idx) :
    (iblk m c 6 t : Vec Ideal S1024x1024 .bf16) i = a6 m c i := by
  obtain ⟨-, -, -, -, ⟨e0, e1⟩, -⟩ := idx_fixed t
  unfold iblk
  rw [View.read_apply]
  show (V m c main_v9 : FVec Ideal S1024x1024 .bf16) _ = _
  rw [V_v9]
  show a6 m c _ = a6 m c i
  refine congrArg _ (funext fun a => Fin.ext ?_)
  match a with
  | ⟨0, _⟩ => show win0_6.index t (0 : Fin 2) * 1024 + 1 * (i 0).val = (i 0).val; rw [e0]; omega
  | ⟨1, _⟩ => show win0_6.index t (1 : Fin 2) * 1024 + 1 * (i 1).val = (i 1).val; rw [e1]; omega

/-- The first output bias's block. -/
theorem b7 (c : Dev nD) (t : Fin cfg0.N) :
    (iblk m c 7 t : Vec Ideal S1x1024 .f32) = shapeCast S1x1024 (a7 m c) shapeCasts_S1024_S1x1024 := by
  obtain ⟨-, -, -, -, -, ⟨e0, e1⟩, -⟩ := idx_fixed t
  funext i
  unfold iblk
  rw [View.read_apply]
  show (V m c main_v12 : FVec Ideal S1x1024 .f32) _ = _
  rw [V_v12]
  refine congrArg _ (funext fun a => Fin.ext ?_)
  match a with
  | ⟨0, _⟩ => show win0_7.index t (0 : Fin 2) * 1 + 1 * (i 0).val = (i 0).val; rw [e0]; omega
  | ⟨1, _⟩ => show win0_7.index t (1 : Fin 2) * 1024 + 1 * (i 1).val = (i 1).val; rw [e1]; omega

/-- The second value weight's block: rows 2048, …, 3071 of the other packed weight. -/
theorem w8 (c : Dev nD) (t : Fin cfg0.N) (i : S1024x1024.Idx) :
    (iblk m c 8 t : Vec Ideal S1024x1024 .bf16) i
      = extractStridedSlice S1024x1024 ![2048, 0] (a8 m c) slices_S3072x1024_S1024x1024_2048_0 i := by
  obtain ⟨-, -, -, -, -, -, ⟨e0, e1⟩, -⟩ := idx_fixed t
  unfold iblk
  rw [View.read_apply]
  show (V m c main_v5 : FVec Ideal S1024x1024 .bf16) _ = _
  rw [V_v5]
  show extractStridedSlice S1024x1024 ![2048, 0] (a8 m c) slices_S3072x1024_S1024x1024_2048_0 _ = _
  refine congrArg _ (funext fun a => Fin.ext ?_)
  match a with
  | ⟨0, _⟩ => show win0_8.index t (0 : Fin 2) * 1024 + 1 * (i 0).val = (i 0).val; rw [e0]; omega
  | ⟨1, _⟩ => show win0_8.index t (1 : Fin 2) * 1024 + 1 * (i 1).val = (i 1).val; rw [e1]; omega

/-- The second value bias's block. -/
theorem b9 (c : Dev nD) (t : Fin cfg0.N) :
    (iblk m c 9 t : Vec Ideal S1x1024 .f32)
      = shapeCast S1x1024 (extractStridedSlice S1024 ![2048] (a9 m c) slices_S3072_S1024_2048) shapeCasts_S1024_S1x1024 := by
  obtain ⟨-, -, -, -, -, -, -, ⟨e0, e1⟩, -⟩ := idx_fixed t
  funext i
  unfold iblk
  rw [View.read_apply]
  show (V m c main_v7 : FVec Ideal S1x1024 .f32) _ = _
  rw [V_v7]
  refine congrArg _ (funext fun a => Fin.ext ?_)
  match a with
  | ⟨0, _⟩ => show win0_9.index t (0 : Fin 2) * 1 + 1 * (i 0).val = (i 0).val; rw [e0]; omega
  | ⟨1, _⟩ => show win0_9.index t (1 : Fin 2) * 1024 + 1 * (i 1).val = (i 1).val; rw [e1]; omega

/-- The second output weight's block. -/
theorem w10 (c : Dev nD) (t : Fin cfg0.N) (i : S1024x1024.Idx) :
    (iblk m c 10 t : Vec Ideal S1024x1024 .bf16) i = a10 m c i := by
  obtain ⟨-, -, -, -, -, -, -, -, ⟨e0, e1⟩, -⟩ := idx_fixed t
  unfold iblk
  rw [View.read_apply]
  show (V m c main_v10 : FVec Ideal S1024x1024 .bf16) _ = _
  rw [V_v10]
  show a10 m c _ = a10 m c i
  refine congrArg _ (funext fun a => Fin.ext ?_)
  match a with
  | ⟨0, _⟩ => show win0_10.index t (0 : Fin 2) * 1024 + 1 * (i 0).val = (i 0).val; rw [e0]; omega
  | ⟨1, _⟩ => show win0_10.index t (1 : Fin 2) * 1024 + 1 * (i 1).val = (i 1).val; rw [e1]; omega

/-- The second output bias's block. -/
theorem b11 (c : Dev nD) (t : Fin cfg0.N) :
    (iblk m c 11 t : Vec Ideal S1x1024 .f32) = shapeCast S1x1024 (a11 m c) shapeCasts_S1024_S1x1024 := by
  obtain ⟨-, -, -, -, -, -, -, -, -, e0, e1⟩ := idx_fixed t
  funext i
  unfold iblk
  rw [View.read_apply]
  show (V m c main_v13 : FVec Ideal S1x1024 .f32) _ = _
  rw [V_v13]
  refine congrArg _ (funext fun a => Fin.ext ?_)
  match a with
  | ⟨0, _⟩ => show win0_11.index t (0 : Fin 2) * 1 + 1 * (i 0).val = (i 0).val; rw [e0]; omega
  | ⟨1, _⟩ => show win0_11.index t (1 : Fin 2) * 1024 + 1 * (i 1).val = (i 1).val; rw [e1]; omega

end Cert.Hand.Blocks

end
-- ==== Proof.KernelValue.lean ====
/-
  The kernel's three result arrays after the run.

  At grid point t each result window writes back a block of 512 rows, and that block is rows
  512·t, …, 512·t + 511 of one whole matrix: the fuse projection for the third result, and the value layer
  followed by the output layer of the fuse projection for the first two. The 32 blocks tile the 16384 rows,
  so after the run each result array is that whole matrix.
-/
import proofs.«172389_j14018773254229_1_alg».proof.Proof.Blocks

set_option maxRecDepth 16384

noncomputable section

namespace Cert.Hand.KernelValue

open Cert.KernelIdeal Cert.KernelIdeal.Gen Cert.KernelIdeal.Value
open Idealize.ShloMosaic Idealize.ShloMosaic.TcCoe Idealize.SL.Sem Idealize.ShloMosaic.ValueIdx Cert.RowBlock
open Idealize.ShloMosaic.Pipeline (Dat)
open Cert.Hand.Blocks Cert.Hand.Rows
open Cert.Hand.Layers (dense fuse viaValue rowsAt entriesAt)

variable (m : (ℓ : Loc nD τ sig) → Buf (Elt Ideal) ℓ) (ρ : Dev nD → PrngReg)

theorem hz : (![0, 0] : Fin 2 → Nat) = fun _ => 0 := funext fun a => by fin_cases a <;> rfl

/-- A row block read through any map that sends (p, q) to (512·t + p, q) is the matrix read through that map. -/
theorem eq_of_rows {t : Nat} {G : FVec Ideal S16384x1024 .f32} {g : FVec Ideal S512x1024 .f32} (H : IsRows 512 t G g)
    (e : S512x1024.Idx → S16384x1024.Idx) (h0 : ∀ j, (e j 0).val = 512 * t + (j 0).val) (h1 : ∀ j, (e j 1).val = (j 1).val)
    (j : S512x1024.Idx) : g j = G (e j) := by
  have he : e j = ix2 (e j 0) (j 1) := by
    funext a
    match a with
    | ⟨0, _⟩ => rfl
    | ⟨1, _⟩ => exact Fin.ext (h1 j)
  rw [he]
  exact (congrArg g (eq_ix2 j)).trans (H (j 0) (j 1) (e j 0) (h0 j))

/-- The fuse projection of the summed features. -/
abbrev fusedOf (c : Dev nD) : FVec Ideal S16384x1024 .f32 := fuse (a0 m c) (a1 m c) (a2 m c) (a3 m c)
/-- The first modality's output through its value layer. -/
abbrev textOf (c : Dev nD) : FVec Ideal S16384x1024 .f32 := viaValue (fusedOf m c) (a4 m c) (a5 m c) (a6 m c) (a7 m c)
/-- The second modality's output through its value layer. -/
abbrev imageOf (c : Dev nD) : FVec Ideal S16384x1024 .f32 := viaValue (fusedOf m c) (a8 m c) (a9 m c) (a10 m c) (a11 m c)

/-- What point t writes back to the third result: rows 512·t, … of the fuse projection. -/
theorem flushed14_eq (c : Dev nD) (t : Fin cfg0.N) :
    (dats m 0 c).flushed 14 t = ((cfg0.win 14).blk t).view.read (Elt Ideal) (fusedOf m c) := by
  rw [flushed14]
  unfold out0_14
  rw [View.canon_unit_zero hz]
  simp only [View.ld_unit_zero (S := S512x1024) hz, View.ld_unit_zero (S := S1024x1024) hz, View.ld_unit_zero (S := S1x1024) hz]
  obtain ⟨-, -, -, -, -, -, -, -, e0, e1⟩ := idx_moving t
  have H := pay2_rows (rows0 m c t) (rows1 m c t) (a2 m c) (iblk m c 2 t) (w2 m c t) (a3 m c) (iblk m c 3 t)
    shapeCasts_S1024_S1x1024 (b3 m c t)
  funext j
  rw [View.read_apply]
  show k0_pay2 (F := Ideal) (iblk m c 0 t) (iblk m c 1 t) (iblk m c 2 t) (iblk m c 3 t) j
    = fusedOf m c (((cfg0.win 14).blk t).view.emb j)
  exact eq_of_rows H (fun j => ((cfg0.win 14).blk t).view.emb j)
    (fun j => by show win0_14.index t (0 : Fin 2) * 512 + 1 * (j 0).val = _; rw [e0]; omega)
    (fun j => by show win0_14.index t (1 : Fin 2) * 1024 + 1 * (j 1).val = _; rw [e1]; omega) j

/-- What point t writes back to the first result: rows 512·t, … of the first modality's output. -/
theorem flushed12_eq (c : Dev nD) (t : Fin cfg0.N) :
    (dats m 0 c).flushed 12 t = ((cfg0.win 12).blk t).view.read (Elt Ideal) (textOf m c) := by
  rw [flushed12]
  unfold out0_12
  rw [View.canon_unit_zero hz]
  simp only [View.ld_unit_zero (S := S512x1024) hz, View.ld_unit_zero (S := S1024x1024) hz, View.ld_unit_zero (S := S1x1024) hz]
  obtain ⟨-, -, -, -, e0, e1, -⟩ := idx_moving t
  have H := pay4_rows (rows0 m c t) (rows1 m c t) (a2 m c) (iblk m c 2 t) (w2 m c t) (a3 m c) (iblk m c 3 t)
    shapeCasts_S1024_S1x1024 (b3 m c t)
    (extractStridedSlice S1024x1024 ![2048, 0] (a4 m c) slices_S3072x1024_S1024x1024_2048_0) (iblk m c 4 t) (w4 m c t)
    (extractStridedSlice S1024 ![2048] (a5 m c) slices_S3072_S1024_2048) (iblk m c 5 t) (b5 m c t)
    (a6 m c) (iblk m c 6 t) (w6 m c t) (a7 m c) (iblk m c 7 t) (b7 m c t)
  funext j
  rw [View.read_apply]
  show k0_pay4 (F := Ideal) (iblk m c 0 t) (iblk m c 1 t) (iblk m c 2 t) (iblk m c 3 t) (iblk m c 4 t) (iblk m c 5 t)
      (iblk m c 6 t) (iblk m c 7 t) j
    = textOf m c (((cfg0.win 12).blk t).view.emb j)
  exact eq_of_rows H (fun j => ((cfg0.win 12).blk t).view.emb j)
    (fun j => by show win0_12.index t (0 : Fin 2) * 512 + 1 * (j 0).val = _; rw [e0]; omega)
    (fun j => by show win0_12.index t (1 : Fin 2) * 1024 + 1 * (j 1).val = _; rw [e1]; omega) j

/-- What point t writes back to the second result: rows 512·t, … of the second modality's output. -/
theorem flushed13_eq (c : Dev nD) (t : Fin cfg0.N) :
    (dats m 0 c).flushed 13 t = ((cfg0.win 13).blk t).view.read (Elt Ideal) (imageOf m c) := by
  rw [flushed13]
  unfold out0_13
  rw [View.canon_unit_zero hz]
  simp only [View.ld_unit_zero (S := S512x1024) hz, View.ld_unit_zero (S := S1024x1024) hz, View.ld_unit_zero (S := S1x1024) hz]
  obtain ⟨-, -, -, -, -, -, e0, e1, -⟩ := idx_moving t
  have H := pay1_rows (rows0 m c t) (rows1 m c t) (a2 m c) (iblk m c 2 t) (w2 m c t) (a3 m c) (iblk m c 3 t)
    shapeCasts_S1024_S1x1024 (b3 m c t)
    (extractStridedSlice S1024x1024 ![2048, 0] (a8 m c) slices_S3072x1024_S1024x1024_2048_0) (iblk m c 8 t) (w8 m c t)
    (extractStridedSlice S1024 ![2048] (a9 m c) slices_S3072_S1024_2048) (iblk m c 9 t) (b9 m c t)
    (a10 m c) (iblk m c 10 t) (w10 m c t) (a11 m c) (iblk m c 11 t) (b11 m c t)
  funext j
  rw [View.read_apply]
  show k0_pay1 (F := Ideal) (k0_pay3 (F := Ideal) (iblk m c 0 t) (iblk m c 1 t) (iblk m c 2 t) (iblk m c 3 t))
      (iblk m c 8 t) (iblk m c 9 t) (iblk m c 10 t) (iblk m c 11 t) j
    = imageOf m c (((cfg0.win 13).blk t).view.emb j)
  exact eq_of_rows H (fun j => ((cfg0.win 13).blk t).view.emb j)
    (fun j => by show win0_13.index t (0 : Fin 2) * 512 + 1 * (j 0).val = _; rw [e0]; omega)
    (fun j => by show win0_13.index t (1 : Fin 2) * 1024 + 1 * (j 1).val = _; rw [e1]; omega) j

/-! ## The 32 blocks tile the rows -/

/-- An index of a result array is in point t's block iff each coordinate is in the block's range on its axis. -/
theorem mem_blk12 (t : Fin cfg0.N) (i : S16384x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v14_0).slice (win0_12.rect t)).set ↔ _
  rw [View.set_slice_whole, Rect.mem_set_unit]
  exact Iff.rfl
theorem mem_blk13 (t : Fin cfg0.N) (i : S16384x1024.Idx) :
    i ∈ ((cfg0.win 13).blk t).view.set ↔ ∀ a : Fin 2, win0_13.index t a * S512x1024.size a ≤ (i a).val
      ∧ (i a).val < win0_13.index t a * S512x1024.size a + S512x1024.size a := by
  show i ∈ ((View.whole main_v14_1).slice (win0_13.rect t)).set ↔ _
  rw [View.set_slice_whole, Rect.mem_set_unit]
  exact Iff.rfl
theorem mem_blk14 (t : Fin cfg0.N) (i : S16384x1024.Idx) :
    i ∈ ((cfg0.win 14).blk t).view.set ↔ ∀ a : Fin 2, win0_14.index t a * S512x1024.size a ≤ (i a).val
      ∧ (i a).val < win0_14.index t a * S512x1024.size a + S512x1024.size a := by
  show i ∈ ((View.whole main_v14_2).slice (win0_14.rect t)).set ↔ _
  rw [View.set_slice_whole, Rect.mem_set_unit]
  exact Iff.rfl

/-- Row r lies in the block of point r / 512. -/
theorem point_of_row (i : S16384x1024.Idx) : ∃ t : Fin cfg0.N, t.val = (i 0).val / 512 := by
  have hi0 : (i 0).val < 16384 := (i 0).isLt
  exact ⟨⟨(i 0).val / 512, by rw [show cfg0.N = 32 from N_0]; omega⟩, rfl⟩

theorem cover12 (i : S16384x1024.Idx) :
    ∃ t : Fin cfg0.N, (cfg0.win 12).flush t = true ∧ i ∈ ((cfg0.win 12).blk t).view.set := by
  have hi1 : (i 1).val < 1024 := (i 1).isLt
  obtain ⟨t, ht⟩ := point_of_row i
  obtain ⟨-, -, -, -, e0, e1, -⟩ := idx_moving t
  refine ⟨t, flush0_12 t, (mem_blk12 t i).mpr fun a => ?_⟩
  match a with
  | ⟨0, _⟩ =>
    show win0_12.index t (0 : Fin 2) * 512 ≤ (i 0).val ∧ (i 0).val < win0_12.index t (0 : Fin 2) * 512 + 512
    rw [e0, ht]; omega
  | ⟨1, _⟩ =>
    show win0_12.index t (1 : Fin 2) * 1024 ≤ (i 1).val ∧ (i 1).val < win0_12.index t (1 : Fin 2) * 1024 + 1024
    rw [e1]; omega

theorem cover13 (i : S16384x1024.Idx) :
    ∃ t : Fin cfg0.N, (cfg0.win 13).flush t = true ∧ i ∈ ((cfg0.win 13).blk t).view.set := by
  have hi1 : (i 1).val < 1024 := (i 1).isLt
  obtain ⟨t, ht⟩ := point_of_row i
  obtain ⟨-, -, -, -, -, -, e0, e1, -⟩ := idx_moving t
  refine ⟨t, flush0_13 t, (mem_blk13 t i).mpr fun a => ?_⟩
  match a with
  | ⟨0, _⟩ =>
    show win0_13.index t (0 : Fin 2) * 512 ≤ (i 0).val ∧ (i 0).val < win0_13.index t (0 : Fin 2) * 512 + 512
    rw [e0, ht]; omega
  | ⟨1, _⟩ =>
    show win0_13.index t (1 : Fin 2) * 1024 ≤ (i 1).val ∧ (i 1).val < win0_13.index t (1 : Fin 2) * 1024 + 1024
    rw [e1]; omega

theorem cover14 (i : S16384x1024.Idx) :
    ∃ t : Fin cfg0.N, (cfg0.win 14).flush t = true ∧ i ∈ ((cfg0.win 14).blk t).view.set := by
  have hi1 : (i 1).val < 1024 := (i 1).isLt
  obtain ⟨t, ht⟩ := point_of_row i
  obtain ⟨-, -, -, -, -, -, -, -, e0, e1⟩ := idx_moving t
  refine ⟨t, flush0_14 t, (mem_blk14 t i).mpr fun a => ?_⟩
  match a with
  | ⟨0, _⟩ =>
    show win0_14.index t (0 : Fin 2) * 512 ≤ (i 0).val ∧ (i 0).val < win0_14.index t (0 : Fin 2) * 512 + 512
    rw [e0, ht]; omega
  | ⟨1, _⟩ =>
    show win0_14.index t (1 : Fin 2) * 1024 ≤ (i 1).val ∧ (i 1).val < win0_14.index t (1 : Fin 2) * 1024 + 1024
    rw [e1]; omega

/-! ## The result arrays after the run -/

theorem final12 (c : Dev nD) : (dats m 0 c).arrAt 12 cfg0.N = textOf m c :=
  (dats m 0 c).arrAt_eq_of_cover 12 (textOf m c) (fun t _ => flushed12_eq m c t) cover12
theorem final13 (c : Dev nD) : (dats m 0 c).arrAt 13 cfg0.N = imageOf m c :=
  (dats m 0 c).arrAt_eq_of_cover 13 (imageOf m c) (fun t _ => flushed13_eq m c t) cover13
theorem final14 (c : Dev nD) : (dats m 0 c).arrAt 14 cfg0.N = fusedOf m c :=
  (dats m 0 c).arrAt_eq_of_cover 14 (fusedOf m c) (fun t _ => flushed14_eq m c t) cover14

/-- The run, read: each result array at its whole matrix, the arguments unchanged. -/
theorem run : θ_run defs (onTc (τ := τ) (main (F := Ideal))) ⟨m, fun _ => 0, ρ⟩ fun r => ∀ c : Dev nD,
      r.2.mem ((c : Thread nD τ).loc main_v14_0) = textOf m c
      ∧ r.2.mem ((c : Thread nD τ).loc main_v14_1) = imageOf m c
      ∧ r.2.mem ((c : Thread nD τ).loc main_v14_2) = fusedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final12 m c), (h c).2.1.trans (final13 m c),
      (h c).2.2.1.trans (final14 m c), (h c).2.2.2⟩)
    (run_blocks m ρ)

end Cert.Hand.KernelValue

end
-- ==== Proof.lean ====
/-
  Two feature matrices of 16384 samples by 1024 features are summed and passed through a fuse projection;
  each modality then attends from its own features to the fused ones with eight heads, every sample being
  a sequence of length one, and an output projection follows.

  Because the sequence has length one, each head's softmax runs over a single score s, and its weight is
  exp(s − s) / exp(s − s). Under the precondition every argument entry is a real number, so every query and
  key entry (finite sums of products of reals) and every score (such a sum over √128) is real; then
  s − s = 0, the weight is 1, and the attention returns its value unchanged. The reference's first two
  results are therefore the value layer followed by the output layer of the fused matrix, and its third is
  the fused matrix.

  The kernel computes exactly these three matrices, 512 rows per grid point: sums, changes of float format
  (the identity on extended reals), products with transposed weights into a zero accumulator and bias rows
  all act on each row by itself, so the block a point writes back is the corresponding 512 rows of the whole
  matrix, and the 32 blocks tile the 16384 rows. No law of arithmetic beyond these readings joins the two
  sides: both end at the same composition of dense layers of the same arguments.

  The ideal pass rewrote nothing, so the kernel's idealization is its own text read over the extended reals.
-/
import proofs.«172389_j14018773254229_1_alg».proof.Defs
import proofs.«172389_j14018773254229_1_alg».proof.Proof.Gen.Kernel
import proofs.«172389_j14018773254229_1_alg».proof.Proof.Gen.Kernel.Skeleton
import proofs.«172389_j14018773254229_1_alg».proof.Proof.Gen.Kernel.Launch
import proofs.«172389_j14018773254229_1_alg».proof.Proof.Gen.Kernel.Points
import proofs.«172389_j14018773254229_1_alg».proof.Proof.Gen.Kernel.Frame
import proofs.«172389_j14018773254229_1_alg».proof.Proof.Gen.KernelIdeal
import proofs.«172389_j14018773254229_1_alg».proof.Proof.Gen.KernelIdeal.Skeleton
import proofs.«172389_j14018773254229_1_alg».proof.Proof.Gen.KernelIdeal.Launch
import proofs.«172389_j14018773254229_1_alg».proof.Proof.Gen.KernelIdeal.Points
import proofs.«172389_j14018773254229_1_alg».proof.Proof.Gen.KernelIdeal.Frame
import proofs.«172389_j14018773254229_1_alg».proof.Proof.Gen.ReferenceIdeal
import proofs.«172389_j14018773254229_1_alg».proof.Proof.Gen.Pre_finite_inputs
import proofs.«172389_j14018773254229_1_alg».proof.Proof.Gen.KernelIdeal.Value
import proofs.«172389_j14018773254229_1_alg».proof.Proof.Gen.ReferenceIdeal.Run
import proofs.«172389_j14018773254229_1_alg».proof.Proof.Finite
import proofs.«172389_j14018773254229_1_alg».proof.Proof.RefValue
import proofs.«172389_j14018773254229_1_alg».proof.Proof.KernelValue
import Idealize.ShloMosaic.Adequacy
import Idealize.ShloMosaic.Init

set_option maxRecDepth 16384

noncomputable section

namespace Cert.Proof

open Idealize.ShloMosaic Idealize.SL.Sem
open Cert.Hand.LibStats Cert.Hand.Layers

/-- The word-level kernel runs, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run, with the results forgotten. -/
theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, both programs end with the same three matrices. -/
theorem algebraic : Cert.algebraic_KernelIdeal_ReferenceIdeal := by
  intro m ρ m' ρ' hpre hagree
  refine ⟨fun c => Cert.Hand.KernelValue.textOf m c, fun c => Cert.Hand.KernelValue.imageOf m c,
    fun c => Cert.Hand.KernelValue.fusedOf m c, Cert.Hand.KernelValue.run m ρ, ?_⟩
  refine (θ_run Cert.ReferenceIdeal.defs _ _).mono (fun _ h c => ?_) (Cert.ReferenceIdeal.Value.run (F := Ideal) m' ρ')
  obtain ⟨h52, h99, h5, hargs⟩ := h c
  obtain ⟨g0, g1, g2, g3, g4, g5, g6, g7, g8, g9, g10, g11⟩ := hagree c
  -- every argument entry is real
  obtain ⟨q0, q1, q2, q3, q4, q5, q6, q7, q8, q9, q10, q11⟩ :=
    Cert.Hand.Finite.real_of_pre _ _ _ _ _ _ _ _ _ _ _ _ (hpre c)
  -- the two programs' arguments are the same arrays
  have e0 : Cert.Hand.RefValue.r0 m' c = Cert.Hand.Blocks.a0 m c := g0
  have e1 : Cert.Hand.RefValue.r1 m' c = Cert.Hand.Blocks.a1 m c := g1
  have e2 : Cert.Hand.RefValue.r2 m' c = Cert.Hand.Blocks.a2 m c := g2
  have e3 : Cert.Hand.RefValue.r3 m' c = Cert.Hand.Blocks.a3 m c := g3
  have e4 : Cert.Hand.RefValue.r4 m' c = Cert.Hand.Blocks.a4 m c := g4
  have e5 : Cert.Hand.RefValue.r5 m' c = Cert.Hand.Blocks.a5 m c := g5
  have e6 : Cert.Hand.RefValue.r6 m' c = Cert.Hand.Blocks.a6 m c := g6
  have e7 : Cert.Hand.RefValue.r7 m' c = Cert.Hand.Blocks.a7 m c := g7
  have e8 : Cert.Hand.RefValue.r8 m' c = Cert.Hand.Blocks.a8 m c := g8
  have e9 : Cert.Hand.RefValue.r9 m' c = Cert.Hand.Blocks.a9 m c := g9
  have e10 : Cert.Hand.RefValue.r10 m' c = Cert.Hand.Blocks.a10 m c := g10
  have e11 : Cert.Hand.RefValue.r11 m' c = Cert.Hand.Blocks.a11 m c := g11
  -- the fused matrix is real
  have hF : ∀ i, IsReal (Cert.Hand.KernelValue.fusedOf m c i) :=
    dense_real _ _ _ (add_real _ _ q0 q1) q2 q3
  refine ⟨h52.trans ?_, h99.trans ?_, h5.trans ?_, hargs⟩
  · refine (Cert.Hand.RefValue.text_term m' c).trans ?_
    rw [e0, e1, e2, e3, e4, e5, e6, e7]
    exact Cert.Hand.RefValue.viaAttention_eq _ _ _ _ _ _ q0 hF q4 q5
  · refine (Cert.Hand.RefValue.image_term m' c).trans ?_
    rw [e0, e1, e2, e3, e8, e9, e10, e11]
    exact Cert.Hand.RefValue.viaAttention_eq _ _ _ _ _ _ q1 hF q8 q9
  · show fuse (Cert.Hand.RefValue.r0 m' c) (Cert.Hand.RefValue.r1 m' c) (Cert.Hand.RefValue.r2 m' c) (Cert.Hand.RefValue.r3 m' c) = _
    rw [e0, e1, e2, e3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
